-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v27_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v27_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x256 .f32) (main_arg1 : IVec S1600000 32) (main_arg2 : IVec S1600000 32) (main_arg3 : FVec F S256x64 .f32) (main_arg4 : FVec F S64 .f32) (main_arg5 : FVec F S64x40 .f32) (main_arg6 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg5
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg6 main_v13 main_v16
-- ==== Kernel.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x256 : Shape := ⟨2, ![5000, 256]⟩
abbrev S5000x1 : Shape := ⟨2, ![5000, 1]⟩
abbrev S5000x64 : Shape := ⟨2, ![5000, 64]⟩
abbrev S1600000x64 : Shape := ⟨2, ![1600000, 64]⟩
abbrev S1x64 : Shape := ⟨2, ![1, 64]⟩
abbrev S100000x40 : Shape := ⟨2, ![100000, 40]⟩
abbrev S2000x64 : Shape := ⟨2, ![2000, 64]⟩
abbrev S2000x1 : Shape := ⟨2, ![2000, 1]⟩
abbrev S2000x40 : Shape := ⟨2, ![2000, 40]⟩
abbrev S1600000x40 : Shape := ⟨2, ![1600000, 40]⟩
abbrev S1x40 : Shape := ⟨2, ![1, 40]⟩

abbrev nBuf : Space → Nat
  | .hbm => 59
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x64, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x40, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x40, .f32⟩
  | .hbm, ⟨53, _⟩ => ⟨S_, .f32⟩
  | .hbm, ⟨54, _⟩ => ⟨S100000x40, .f32⟩
  | .hbm, ⟨55, _⟩ => ⟨S1600000x1, .i32⟩
  | .hbm, ⟨56, _⟩ => ⟨S100000x40, .f32⟩
  | .hbm, ⟨57, _⟩ => ⟨S1x40, .f32⟩
  | .hbm, ⟨58, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x64, .f32⟩
  | .local _ .vmem, ⟨5, _⟩ => ⟨S5000x64, .f32⟩
  | .local _ .vmem, ⟨6, _⟩ => ⟨S5000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S2000x1, .f32⟩
  | .local _ .vmem, ⟨13, _⟩ => ⟨S2000x1, .f32⟩
  | .local _ .vmem, ⟨14, _⟩ => ⟨S64x40, .f32⟩
  | .local _ .vmem, ⟨15, _⟩ => ⟨S2000x64, .f32⟩
  | .local _ .vmem, ⟨16, _⟩ => ⟨S2000x64, .f32⟩
  | .local _ .vmem, ⟨17, _⟩ => ⟨S2000x40, .f32⟩
  | .local _ .vmem, ⟨18, _⟩ => ⟨S2000x40, .f32⟩
  | .local _ .vmem, ⟨19, _⟩ => ⟨S2000x40, .f32⟩
  | .local _ .vmem, ⟨20, _⟩ => ⟨S2000x40, .f32⟩
  | .local _ .vmem, ⟨21, _⟩ => ⟨S2000x1, .f32⟩
  | .local _ .vmem, ⟨22, _⟩ => ⟨S2000x1, .f32⟩
  | .local _ .vmem, ⟨23, _⟩ => ⟨S1x40, .f32⟩
  | .local _ .vmem, ⟨24, _⟩ => ⟨S2000x40, .f32⟩
  | .local _ .vmem, ⟨25, _⟩ => ⟨S2000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x40_S64x40_0_0 : ∀ a, (![0, 0] : Fin 2 → Nat) a + S64x40.size a ≤ S64x40.size a
  h_S64x40 : 0 < S64x40.numel
  inb_S2000x40_S2000x40_0_0 : ∀ a, (![0, 0] : Fin 2 → Nat) a + S2000x40.size a ≤ S2000x40.size a
  h_S2000x40 : 0 < S2000x40.numel
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  broadcasts_S2000x1_S2000x40 : S2000x1.Broadcasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  scatter_S100000_S1600000x1_S1600000_n_0_0_1_wf : ScatterDims.WF S100000 S1600000x1 S1600000 [] [0] [0] 1
  dot_S5000x256_S256x64_S5000x64_1_0_0_1_n_n_wf : DotDims.WF S5000x256 S256x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x40_S2000x40_1_0_0_1_n_n_wf : DotDims.WF S2000x64 S64x40 S2000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .f32 = 32 ∨ (Rect.block (s := S100000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x40.size a ≤ S64x40.size a
  hwx1_4 : ∀ i : grid1.Coords, EltTy.bits .f32 = 32 ∨ (Rect.block (s := S64x40) S64x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x40.size a ≤ S100000x40.size a
  hwx1_6 : ∀ i : grid1.Coords, EltTy.bits .f32 = 32 ∨ (Rect.block (s := S100000x40) S2000x40.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x40.size a ≤ S100000x40.size a
  hwx2_0 : ∀ i : grid2.Coords, EltTy.bits .f32 = 32 ∨ (Rect.block (s := S100000x40) S2000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x40.size a ≤ S100000x40.size a
  hwx2_3 : ∀ i : grid2.Coords, EltTy.bits .f32 = 32 ∨ (Rect.block (s := S100000x40) S2000x40.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27_0) S2000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v27_1) S2000x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S2000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S2000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 74
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x256, .f32⟩
  | .hbm, ⟨27, _⟩ => ⟨S100000x256, .f32⟩
  | .hbm, ⟨28, _⟩ => ⟨S100000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S100000x1, .f32⟩
  | .hbm, ⟨43, _⟩ => ⟨S100000x64, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S100000x1, .f32⟩
  | .hbm, ⟨52, _⟩ => ⟨S100000x64, .f32⟩
  | .hbm, ⟨53, _⟩ => ⟨S100000x64, .f32⟩
  | .hbm, ⟨54, _⟩ => ⟨S100000x40, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x40, .f32⟩
  | .hbm, ⟨64, _⟩ => ⟨S_, .f32⟩
  | .hbm, ⟨65, _⟩ => ⟨S100000x40, .f32⟩
  | .hbm, ⟨66, _⟩ => ⟨S1600000x1, .i32⟩
  | .hbm, ⟨67, _⟩ => ⟨S100000x40, .f32⟩
  | .hbm, ⟨68, _⟩ => ⟨S100000x1, .f32⟩
  | .hbm, ⟨69, _⟩ => ⟨S100000x40, .f32⟩
  | .hbm, ⟨70, _⟩ => ⟨S100000x40, .f32⟩
  | .hbm, ⟨71, _⟩ => ⟨S1x40, .f32⟩
  | .hbm, ⟨72, _⟩ => ⟨S100000x40, .f32⟩
  | .hbm, ⟨73, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.LibKeepdims.lean ====
/-
  A column kept as a trailing unit axis, read at coordinates: the three layout steps of a row reduction with the reduced
  axis kept (`sum(axis=1, keepdims=True)`) followed by a broadcast back along the rows.

  • an `[a]` vector viewed as an `[a, 1]` column reads, at `(i, u)`, the vector at `i`;
  • an `[a, 1]` column broadcast to `[a, b]` reads, at `(p, c)`, the column at `(p, 0)`;
  • a sum of an `[a, b]` array along its second axis reads, at `i`, the sum over `n` of the array at `(i, n)`.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals, the sum of an `[a, b]` array along its second axis (started from the zero word) reads, at row
    `i`, the sum over `n` of the entries `(i, n)`. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (i : Fin a) :
    multiReduction (F := Ideal) .add [1] ⟨1, ![a]⟩ src 0x00000000#32 h hφ hacc (ix1 i) = ∑ n : Fin b, src (ix2 i n) :=
  (Ideal.multiReduction_add_single src 0x00000000#32 h hφ hacc (ix1 i)).trans
    (Finset.sum_congr rfl fun k _ => congrArg src (funext fun ax => Fin.ext (by
      match ax with
      | ⟨0, _⟩ => rfl
      | ⟨1, _⟩ => rfl)))

end Cert.Keepdims
-- ==== Proof.Stretches.lean ====
/-
  The host stretches of the idealized kernel program, read at the three regions' entries.

  Before the first pallas_call the program counts each node's out- and in-degree (a scatter-add of ones by the source,
  resp. destination, index), clamps it at one, takes the reciprocal square root (`degNorm`) and views the result as a
  `[100000, 1]` column. Between two pallas_calls it gathers the rows of the projection by the (wrapped) source index and
  sums them into the destination rows (`edgeSumHidden`, `edgeSumOut`): the aggregation is kept closed here. Each lemma
  below says what one array holds when a region is entered, as those closed terms of the launch memory `m`.
-/
import proofs.«147151_j55113020342885_1_alg».proof.Proof.Gen.KernelIdeal.Frame
import proofs.«147151_j55113020342885_1_alg».proof.Proof.LibKeepdims
import Idealize.ShloMosaic.Lib.StableHlo.Run
import Idealize.ShloMosaic.Lib.ValueIdx
import Idealize.ShloMosaic.Lib.ValueLayout

set_option maxRecDepth 16384

noncomputable section

namespace Cert.KernelIdeal.Stretches

open Idealize.ShloMosaic Idealize.ShloMosaic.TcCoe Idealize.SL.Sem Idealize.ShloMosaic.ValueIdx
open Cert.KernelIdeal Cert.KernelIdeal.Gen

/-- A node's degree normalisation: the count of edges with that node as `idx`, at least one, to the power −1/2. -/
def degNorm (idx : (⟨S1600000, .i32⟩ : BufTy).Contents (Elt Ideal)) : (⟨S100000, .f32⟩ : BufTy).Contents (Elt Ideal) :=
  Host.rsqrt (F := Ideal) (maximumf
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 idx)
      (broadcastInDim S1600000 ![] bcast_S_S1600000 (constant (F := Ideal) S_ .f32 0x3F800000#32)))
    (broadcastInDim S100000 ![] bcast_S_S100000 (constant (F := Ideal) S_ .f32 0x3F800000#32)))

/-- The edge aggregation on 64 columns: rows of `h` gathered by the source index (a negative index wrapped by the
    node count), summed into the destination rows from zero. -/
def edgeSumHidden (h : (⟨S100000x64, .f32⟩ : BufTy).Contents (Elt Ideal)) (src dst : (⟨S1600000, .i32⟩ : BufTy).Contents (Elt Ideal)) :
    (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The edge aggregation on 40 columns. -/
def edgeSumOut (h : (⟨S100000x40, .f32⟩ : BufTy).Contents (Elt Ideal)) (src dst : (⟨S1600000, .i32⟩ : BufTy).Contents (Elt Ideal)) :
    (⟨S100000x40, .f32⟩ : BufTy).Contents (Elt Ideal) :=
  Host.scatterAdd (F := Ideal) scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 dst)
    (Host.gather gather_S100000x40_S1600000x1_S1600000x40_1_0_n_n_0_1_140 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

variable (m : (ℓ : Loc nD τ sig) → Buf (Elt Ideal) ℓ) (ρ : Dev nD → PrngReg)

/-- A buffer no operation of a stretch writes holds after the stretch what it held before. -/
local macro "unwritten" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## Region 0's entry -/

theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  unwritten hostOps0
theorem W1_arg1 (c : Dev nD) : W1 m ρ c (Proc.devRef .tc main_arg1) = m ((c : Thread nD τ).loc main_arg1) := by
  show StableHlo.after hostOps0 (W0 m ρ c) (Proc.devRef .tc main_arg1) = W0 m ρ c (Proc.devRef .tc main_arg1)
  unwritten hostOps0
theorem W1_arg2 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2)
  unwritten hostOps0
theorem W1_arg3 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3)
  unwritten hostOps0
theorem W1_arg4 (c : Dev nD) : W1 m ρ c (Proc.devRef .tc main_arg4) = m ((c : Thread nD τ).loc main_arg4) := by
  show StableHlo.after hostOps0 (W0 m ρ c) (Proc.devRef .tc main_arg4) = W0 m ρ c (Proc.devRef .tc main_arg4)
  unwritten hostOps0
theorem W1_arg5 (c : Dev nD) : W1 m ρ c (Proc.devRef .tc main_arg5) = m ((c : Thread nD τ).loc main_arg5) := by
  show StableHlo.after hostOps0 (W0 m ρ c) (Proc.devRef .tc main_arg5) = W0 m ρ c (Proc.devRef .tc main_arg5)
  unwritten hostOps0
theorem W1_arg6 (c : Dev nD) : W1 m ρ c (Proc.devRef .tc main_arg6) = m ((c : Thread nD τ).loc main_arg6) := by
  show StableHlo.after hostOps0 (W0 m ρ c) (Proc.devRef .tc main_arg6) = W0 m ρ c (Proc.devRef .tc main_arg6)
  unwritten hostOps0

/-- The source-degree normalisation column, as the first stretch leaves it. -/
theorem W1_v10 (c : Dev nD) : W1 m ρ c (Proc.devRef .tc main_v10)
    = shapeCast S100000x1 (degNorm (m ((c : Thread nD τ).loc main_arg1))) shapeCasts_S100000_S100000x1 := by
  show StableHlo.after hostOps0 (W0 m ρ c) (Proc.devRef .tc main_v10) = _
  after_results
  rfl
/-- The destination-degree normalisation column, as the first stretch leaves it. -/
theorem W1_v14 (c : Dev nD) : W1 m ρ c (Proc.devRef .tc main_v14)
    = shapeCast S100000x1 (degNorm (m ((c : Thread nD τ).loc main_arg2))) shapeCasts_S100000_S100000x1 := by
  show StableHlo.after hostOps0 (W0 m ρ c) (Proc.devRef .tc main_v14) = _
  after_results
  rfl

/-! ## Region 0's exit

An argument the region does not stage, and the destination column, are as the first stretch left them; the source
column is one of the region's input windows, which the region leaves as it found it; its output window holds what
its write-backs leave. -/

theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_v14 (c : Dev nD) : W2 m ρ c (Proc.devRef .tc main_v14)
    = shapeCast S100000x1 (degNorm (m ((c : Thread nD τ).loc main_arg2))) shapeCasts_S100000_S100000x1 :=
  (W2_of_ne m ρ c main_v14 (by decide)).trans (W1_v14 m ρ c)
theorem W2_v10 (c : Dev nD) : W2 m ρ c (Proc.devRef .tc main_v10)
    = shapeCast S100000x1 (degNorm (m ((c : Thread nD τ).loc main_arg1))) shapeCasts_S100000_S100000x1 :=
  ((W2_arr m ρ c 1).trans (((dat0 (V1 m ρ) c).arrAt_in 1 rfl _).trans (A_eq0 (V1 m ρ) c 1))).trans (W1_v10 m ρ c)
theorem W2_v15 (c : Dev nD) : W2 m ρ c (Proc.devRef .tc main_v15) = (dat0 (V1 m ρ) c).arrAt 3 cfg0.N := W2_arr m ρ c 3

/-! ## Region 1's entry: the second stretch aggregates the first projection over the edges and views `b₁` as a row -/

theorem W3_arg1 (c : Dev nD) : W3 m ρ c (Proc.devRef .tc main_arg1) = m ((c : Thread nD τ).loc main_arg1) := by
  refine Eq.trans ?_ (W2_arg1 m ρ c)
  show StableHlo.after hostOps1 (W2 m ρ c) (Proc.devRef .tc main_arg1) = W2 m ρ c (Proc.devRef .tc main_arg1)
  unwritten hostOps1
theorem W3_arg2 (c : Dev nD) : W3 m ρ c (Proc.devRef .tc main_arg2) = m ((c : Thread nD τ).loc main_arg2) := by
  refine Eq.trans ?_ (W2_arg2 m ρ c)
  show StableHlo.after hostOps1 (W2 m ρ c) (Proc.devRef .tc main_arg2) = W2 m ρ c (Proc.devRef .tc main_arg2)
  unwritten hostOps1
theorem W3_arg5 (c : Dev nD) : W3 m ρ c (Proc.devRef .tc main_arg5) = m ((c : Thread nD τ).loc main_arg5) := by
  refine Eq.trans ?_ (W2_arg5 m ρ c)
  show StableHlo.after hostOps1 (W2 m ρ c) (Proc.devRef .tc main_arg5) = W2 m ρ c (Proc.devRef .tc main_arg5)
  unwritten hostOps1
theorem W3_arg6 (c : Dev nD) : W3 m ρ c (Proc.devRef .tc main_arg6) = m ((c : Thread nD τ).loc main_arg6) := by
  refine Eq.trans ?_ (W2_arg6 m ρ c)
  show StableHlo.after hostOps1 (W2 m ρ c) (Proc.devRef .tc main_arg6) = W2 m ρ c (Proc.devRef .tc main_arg6)
  unwritten hostOps1
theorem W3_v10 (c : Dev nD) : W3 m ρ c (Proc.devRef .tc main_v10)
    = shapeCast S100000x1 (degNorm (m ((c : Thread nD τ).loc main_arg1))) shapeCasts_S100000_S100000x1 := by
  refine Eq.trans ?_ (W2_v10 m ρ c)
  show StableHlo.after hostOps1 (W2 m ρ c) (Proc.devRef .tc main_v10) = W2 m ρ c (Proc.devRef .tc main_v10)
  unwritten hostOps1
theorem W3_v14 (c : Dev nD) : W3 m ρ c (Proc.devRef .tc main_v14)
    = shapeCast S100000x1 (degNorm (m ((c : Thread nD τ).loc main_arg2))) shapeCasts_S100000_S100000x1 := by
  refine Eq.trans ?_ (W2_v14 m ρ c)
  show StableHlo.after hostOps1 (W2 m ρ c) (Proc.devRef .tc main_v14) = W2 m ρ c (Proc.devRef .tc main_v14)
  unwritten hostOps1
/-- The aggregated first projection. -/
theorem W3_v25 (c : Dev nD) : W3 m ρ c (Proc.devRef .tc main_v25)
    = edgeSumHidden ((dat0 (V1 m ρ) c).arrAt 3 cfg0.N) (m ((c : Thread nD τ).loc main_arg1)) (m ((c : Thread nD τ).loc main_arg2)) := by
  rw [← W2_v15 m ρ c, ← W2_arg1 m ρ c, ← W2_arg2 m ρ c]
  show StableHlo.after hostOps1 (W2 m ρ c) (Proc.devRef .tc main_v25) = _
  after_results
  rfl
/-- The first bias as a `[1, 64]` row. -/
theorem W3_v26 (c : Dev nD) : W3 m ρ c (Proc.devRef .tc main_v26) = shapeCast S1x64 (m ((c : Thread nD τ).loc main_arg4)) shapeCasts_S64_S1x64 := by
  rw [← W2_arg4 m ρ c]
  show StableHlo.after hostOps1 (W2 m ρ c) (Proc.devRef .tc main_v26) = _
  after_results
  rfl

/-! ## Region 1's exit -/

theorem W4_arg1 (c : Dev nD) : W4 m ρ c (Proc.devRef .tc main_arg1) = m ((c : Thread nD τ).loc main_arg1) :=
  (W4_of_ne m ρ c main_arg1 (by decide)).trans (W3_arg1 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_v14 (c : Dev nD) : W4 m ρ c (Proc.devRef .tc main_v14)
    = shapeCast S100000x1 (degNorm (m ((c : Thread nD τ).loc main_arg2))) shapeCasts_S100000_S100000x1 :=
  ((W4_arr m ρ c 1).trans (((dat1 (V3 m ρ) c).arrAt_in 1 rfl _).trans (A_eq1 (V3 m ρ) c 1))).trans (W3_v14 m ρ c)
theorem W4_v27_0 (c : Dev nD) : W4 m ρ c (Proc.devRef .tc main_v27_0) = (dat1 (V3 m ρ) c).arrAt 5 cfg1.N := W4_arr m ρ c 5
theorem W4_v27_1 (c : Dev nD) : W4 m ρ c (Proc.devRef .tc main_v27_1) = (dat1 (V3 m ρ) c).arrAt 6 cfg1.N := W4_arr m ρ c 6

/-! ## Region 2's entry: the third stretch aggregates the second projection over the edges and views `b₂` as a row -/

theorem W5_v14 (c : Dev nD) : W5 m ρ c (Proc.devRef .tc main_v14)
    = shapeCast S100000x1 (degNorm (m ((c : Thread nD τ).loc main_arg2))) shapeCasts_S100000_S100000x1 := by
  refine Eq.trans ?_ (W4_v14 m ρ c)
  show StableHlo.after hostOps2 (W4 m ρ c) (Proc.devRef .tc main_v14) = W4 m ρ c (Proc.devRef .tc main_v14)
  unwritten hostOps2
theorem W5_v27_0 (c : Dev nD) : W5 m ρ c (Proc.devRef .tc main_v27_0) = (dat1 (V3 m ρ) c).arrAt 5 cfg1.N := by
  refine Eq.trans ?_ (W4_v27_0 m ρ c)
  show StableHlo.after hostOps2 (W4 m ρ c) (Proc.devRef .tc main_v27_0) = W4 m ρ c (Proc.devRef .tc main_v27_0)
  unwritten hostOps2
/-- The aggregated second projection. -/
theorem W5_v37 (c : Dev nD) : W5 m ρ c (Proc.devRef .tc main_v37)
    = edgeSumOut ((dat1 (V3 m ρ) c).arrAt 6 cfg1.N) (m ((c : Thread nD τ).loc main_arg1)) (m ((c : Thread nD τ).loc main_arg2)) := by
  rw [← W4_v27_1 m ρ c, ← W4_arg1 m ρ c, ← W4_arg2 m ρ c]
  show StableHlo.after hostOps2 (W4 m ρ c) (Proc.devRef .tc main_v37) = _
  after_results
  rfl
/-- The second bias as a `[1, 40]` row. -/
theorem W5_v38 (c : Dev nD) : W5 m ρ c (Proc.devRef .tc main_v38) = shapeCast S1x40 (m ((c : Thread nD τ).loc main_arg6)) shapeCasts_S40_S1x40 := by
  rw [← W4_arg6 m ρ c]
  show StableHlo.after hostOps2 (W4 m ρ c) (Proc.devRef .tc main_v38) = _
  after_results
  rfl

/-! ## The two results at the last boundary -/

theorem W6_v39 (c : Dev nD) : W6 m ρ c (Proc.devRef .tc main_v39) = (dat2 (V5 m ρ) c).arrAt 3 cfg2.N := W6_arr m ρ c 3
theorem W6_v27_0 (c : Dev nD) : W6 m ρ c (Proc.devRef .tc main_v27_0) = (dat1 (V3 m ρ) c).arrAt 5 cfg1.N :=
  (W6_of_ne m ρ c main_v27_0 (by decide)).trans (W5_v27_0 m ρ c)

/-! ## The columns and rows read at coordinates -/

/-- A normalisation column `[100000, 1]` made from a vector reads, at row `r`, the vector's entry `r`. -/
theorem column_apply (n : (⟨S100000, .f32⟩ : BufTy).Contents (Elt Ideal)) (r : Fin 100000) :
    shapeCast S100000x1 n shapeCasts_S100000_S100000x1 (ix2 r (0 : Fin 1)) = n (ix1 r) :=
  Cert.Keepdims.shapeCast_a_a1_apply n shapeCasts_S100000_S100000x1 r 0
/-- The first bias viewed as a row reads, at column `k`, the bias's entry `k`. -/
theorem row64_apply (b : (⟨S64, .f32⟩ : BufTy).Contents (Elt Ideal)) (k : Fin 64) :
    shapeCast S1x64 b shapeCasts_S64_S1x64 (ix2 (0 : Fin 1) k) = b (ix1 k) :=
  ValueIdx.shapeCast_a_1a_apply b shapeCasts_S64_S1x64 0 k
/-- The second bias viewed as a row reads, at column `k`, the bias's entry `k`. -/
theorem row40_apply (b : (⟨S40, .f32⟩ : BufTy).Contents (Elt Ideal)) (k : Fin 40) :
    shapeCast S1x40 b shapeCasts_S40_S1x40 (ix2 (0 : Fin 1) k) = b (ix1 k) :=
  ValueIdx.shapeCast_a_1a_apply b shapeCasts_S40_S1x40 0 k

end Cert.KernelIdeal.Stretches

end
-- ==== Proof.Layers.lean ====
/-
  The two graph-convolution layers as four whole-array functions over the extended reals, index by index.

  With `n_src`, `n_dst` the degree normalisations (one entry per node) and `S` the gather-then-segment-sum over the
  edges, the network is
      h   = S((X · diag n_src) W₁) · diag n_dst + b₁            (`projectIn`, then `scaleBiasHidden`)
      out = S((relu h · diag n_src) W₂) · diag n_dst + b₂        (`projectHidden`, then `scaleBiasOut`)
  Each function below is one of the four dense steps; the edge aggregation `S` between them is not opened anywhere.
-/
import Idealize.ShloMosaic.Lib.ValueIdx
import Idealize.ShloMosaic.PureOps.Ideal

noncomputable section

namespace Cert.Layers

open Idealize.ShloMosaic Idealize.ShloMosaic.ValueIdx

/-- Node features, 100000 × 256. -/
abbrev ShX : Shape := ⟨2, ![100000, 256]⟩
/-- Hidden activations, 100000 × 64. -/
abbrev ShH : Shape := ⟨2, ![100000, 64]⟩
/-- Class scores, 100000 × 40. -/
abbrev ShO : Shape := ⟨2, ![100000, 40]⟩
/-- One entry per node. -/
abbrev ShN : Shape := ⟨1, ![100000]⟩
abbrev ShW1 : Shape := ⟨2, ![256, 64]⟩
abbrev ShW2 : Shape := ⟨2, ![64, 40]⟩
abbrev ShB1 : Shape := ⟨1, ![64]⟩
abbrev ShB2 : Shape := ⟨1, ![40]⟩

/-- Row `r` of the features scaled by the node's normalisation, then projected by `W₁`:
    entry `(r, c)` is `∑ k, (x[r,k] · n[r]) · w[k,c]`. -/
def projectIn (x : ShX.Idx → EReal) (n : ShN.Idx → EReal) (w : ShW1.Idx → EReal) : ShH.Idx → EReal :=
  fun i => ∑ k : Fin 256, (x (ix2 (i 0) k) * n (ix1 (i 0))) * w (ix2 k (i 1))

/-- The aggregated hidden layer finished: entry `(r, c)` is `a[r,c] · n[r] + b[c]`. -/
def scaleBiasHidden (a : ShH.Idx → EReal) (n : ShN.Idx → EReal) (b : ShB1.Idx → EReal) : ShH.Idx → EReal :=
  fun i => a i * n (ix1 (i 0)) + b (ix1 (i 1))

/-- The hidden layer rectified at the zero word, scaled by the node's normalisation, then projected by `W₂`:
    entry `(r, c)` is `∑ k, (max h[r,k] 0 · n[r]) · w[k,c]`. -/
def projectHidden (h : ShH.Idx → EReal) (n : ShN.Idx → EReal) (w : ShW2.Idx → EReal) : ShO.Idx → EReal :=
  fun i => ∑ k : Fin 64, (max (h (ix2 (i 0) k)) (Ideal.ofBits .f32 0x00000000#32) * n (ix1 (i 0))) * w (ix2 k (i 1))

/-- The aggregated output layer finished: entry `(r, c)` is `a[r,c] · n[r] + b[c]`. -/
def scaleBiasOut (a : ShO.Idx → EReal) (n : ShN.Idx → EReal) (b : ShB2.Idx → EReal) : ShO.Idx → EReal :=
  fun i => a i * n (ix1 (i 0)) + b (ix1 (i 1))

end Cert.Layers

end
-- ==== Proof.Region0.lean ====
/-
  The first pallas_call (grid of 20 row blocks of 5000): after it, its output array is `Layers.projectIn` of the arrays
  it was entered with — features scaled row by row by the source-degree normalisation, times `W₁`.
-/
import proofs.«147151_j55113020342885_1_alg».proof.Proof.Gen.KernelIdeal.Frame
import proofs.«147151_j55113020342885_1_alg».proof.Proof.Layers
import proofs.«147151_j55113020342885_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

/-! ## The block product at an index

The body multiplies a `[5000, 256]` block by the `[256, 64]` weights into a zero accumulator: entry `(p, q)` is the sum
over the contracted axis `k` of the left operand at `(p, k)` times the right at `(k, q)`. -/

/-- The left operand's row is the result's row. -/
theorem lhs_row (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
/-- The left operand's column is the contracted coordinate. -/
theorem lhs_col (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
/-- The right operand's row is the contracted coordinate. -/
theorem rhs_row (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
/-- The right operand's column is the result's column. -/
theorem rhs_col (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- The product into a zero accumulator, entry `(p, q)`: `∑ k, a[p,k] · b[k,q]`. -/
theorem blockProduct_apply (a : FVec Ideal S5000x256 .bf16) (b : FVec Ideal S256x64 .bf16) (p : Fin 5000) (q : Fin 64) :
    matmul dot_S5000x256_S256x64_S5000x64_1_0_0_1_n_n none a b (constant (F := Ideal) S5000x64 .f32 0x00000000#32) (ix2 p q)
      = ∑ k : Fin 256, a (ix2 p k) * b (ix2 k q) := by
  refine (Ideal.matmul_constant_zero_apply dot_S5000x256_S256x64_S5000x64_1_0_0_1_n_n none a b (ix2 p q)).trans ?_
  rw [← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx (ix2 p q) ((ValueIdx.contrEquiv1 dot_S5000x256_S256x64_S5000x64_1_0_0_1_n_n 256 rfl rfl).symm k) = ix2 p k := funext fun a => Fin.ext (by
    match a with
    | ⟨0, _⟩ => exact lhs_row _ _
    | ⟨1, _⟩ => exact (lhs_col _ _).trans hk)
  have er : dot_S5000x256_S256x64_S5000x64_1_0_0_1_n_n.rhsIdx (ix2 p q) ((ValueIdx.contrEquiv1 dot_S5000x256_S256x64_S5000x64_1_0_0_1_n_n 256 rfl rfl).symm k) = ix2 k q := funext fun a => Fin.ext (by
    match a with
    | ⟨0, _⟩ => exact (rhs_row _ _).trans hk
    | ⟨1, _⟩ => exact rhs_col _ _)
  rw [el, er]

/-- The body's result at entry `(p, q)` of its block, from the three blocks it loads: the feature row `p` scaled by the
    column's entry of row `p`, times the weights' column `q`. -/
theorem payload_apply (x : Vec Ideal S5000x256 .f32) (col : Vec Ideal S5000x1 .f32) (w : Vec Ideal S256x64 .f32)
    (p : Fin 5000) (q : Fin 64) :
    k0_pay1 (F := Ideal) x col w (ix2 p q) = ∑ k : Fin 256, (x (ix2 p k) * col (ix2 p (0 : Fin 1))) * w (ix2 k q) := by
  unfold k0_pay1
  refine (blockProduct_apply _ _ p q).trans ?_
  refine Finset.sum_congr rfl fun k _ => ?_
  show (x (ix2 p k) * broadcastTo S5000x256 (shapeCast S5000x1 col shapeCasts_S5000x1_S5000x1) broadcasts_S5000x1_S5000x256 (ix2 p k)) * w (ix2 k q) = _
  rw [Cert.Keepdims.broadcastTo_a1_ab_apply, shapeCast_self]

/-! ## From blocks to the array

Grid point `t` works on rows `5000·t … 5000·t + 4999`: the features' and the column's blocks are those rows, the weights'
block is the whole `[256, 64]` array, and the output's block is those rows of the `[100000, 64]` result. -/

/-- The body's loads and its store start at offset `(0, 0)` of their buffers. -/
theorem offsets_zero : (![0, 0] : Fin 2 → Nat) = fun _ => 0 := funext fun a => by fin_cases a <;> rfl

/-- The block indices at grid point `t`, decided over the 20 points: the three row-blocked windows sit at block row `t`,
    block column 0; the weights' window at block `(0, 0)`. -/
theorem blockIndices : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A grid point is one of 20. -/
theorem point_lt (t : Fin cfg0.N) : t.val < 20 := lt_of_lt_of_eq t.isLt N_0

-- the buffer contents the region is entered from
variable (V : (c : Dev nD) → (b : Ref sig .tc) → Buf (Elt Ideal) ((c : Thread nD τ).loc b))

/-- The features' block at point `t`, entry `(p, k)`, is the array's entry `(5000·t + p, k)`. -/
theorem featuresBlock_apply (c : Dev nD) (t : Fin cfg0.N) (p : Fin 5000) (k : Fin 256) (r : Fin 100000)
    (hr : r.val = t.val * 5000 + p.val) : iblk0 V c 0 t (ix2 p k) = V c main_arg0 (ix2 r k) := by
  obtain ⟨e0, e1, -⟩ := blockIndices t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 256 + 1 * k.val = k.val; omega

/-- The column's block at point `t`, entry `(p, 0)`, is the column's entry of row `5000·t + p`. -/
theorem columnBlock_apply (c : Dev nD) (t : Fin cfg0.N) (p : Fin 5000) (r : Fin 100000)
    (hr : r.val = t.val * 5000 + p.val) : iblk0 V c 1 t (ix2 p (0 : Fin 1)) = V c main_v10 (ix2 r (0 : Fin 1)) := by
  obtain ⟨-, -, e0, e1, -⟩ := blockIndices t
  show V c main_v10 (((cfg0.win 1).blk t).view.emb (ix2 p (0 : Fin 1))) = _
  refine congrArg (V c main_v10) (funext fun a => Fin.ext ?_)
  match a with
  | ⟨0, _⟩ => show win0_1.index t (0 : Fin 2) * 5000 + 1 * p.val = r.val; omega
  | ⟨1, _⟩ => show win0_1.index t (1 : Fin 2) * 1 + 1 * 0 = 0; omega

/-- The weights' block at every point is the whole array. -/
theorem weightsBlock_apply (c : Dev nD) (t : Fin cfg0.N) (k : Fin 256) (q : Fin 64) :
    iblk0 V c 2 t (ix2 k q) = V c main_arg3 (ix2 k q) := by
  obtain ⟨-, -, -, -, e0, e1, -⟩ := blockIndices t
  show V c main_arg3 (((cfg0.win 2).blk t).view.emb (ix2 k q)) = _
  refine congrArg (V c main_arg3) (funext fun a => Fin.ext ?_)
  match a with
  | ⟨0, _⟩ => show win0_2.index t (0 : Fin 2) * 256 + 1 * k.val = k.val; omega
  | ⟨1, _⟩ => show win0_2.index t (1 : Fin 2) * 64 + 1 * q.val = q.val; omega

/-- Entry `(p, q)` of the output's block at point `t` sits at `(5000·t + p, q)` of the result array. -/
theorem outBlock_emb (t : Fin cfg0.N) (p : Fin 5000) (q : Fin 64) (r : Fin 100000) (hr : r.val = t.val * 5000 + p.val) :
    (((cfg0.win 3).blk t).view.emb (ix2 p q) : S100000x64.Idx) = ix2 r q := by
  obtain ⟨-, -, -, -, -, -, e0, e1⟩ := blockIndices t
  refine funext fun a => Fin.ext ?_
  match a with
  | ⟨0, _⟩ => show win0_3.index t (0 : Fin 2) * 5000 + 1 * p.val = r.val; omega
  | ⟨1, _⟩ => show win0_3.index t (1 : Fin 2) * 64 + 1 * q.val = q.val; omega

/-- What grid point `t` writes back is block `t` of `projectIn` of the arrays the region was entered with. -/
theorem flushed_eq (c : Dev nD) (n : Cert.Layers.ShN.Idx → EReal)
    (hn : ∀ r : Fin 100000, V c main_v10 (ix2 r (0 : Fin 1)) = n (ix1 r)) (t : Fin cfg0.N) :
    (dat0 V c).flushed 3 t
      = ((cfg0.win 3).blk t).view.read (Elt Ideal) (Cert.Layers.projectIn (V c main_arg0) n (V c main_arg3)) := by
  show (cfg0.win 3).cut (grid0.coords t) ((dat0 V c).after 3 t) = _
  rw [after0_3]
  unfold out0_3
  rw [View.canon_unit_zero offsets_zero]
  simp only [View.ld_unit_zero (S := S5000x256) offsets_zero, View.ld_unit_zero (S := S5000x1) offsets_zero, View.ld_unit_zero (S := S256x64) offsets_zero]
  funext j
  obtain ⟨p, q, rfl⟩ : ∃ (p : Fin 5000) (q : Fin 64), j = ix2 p q := ⟨j 0, j 1, eq_ix2 j⟩
  have hp := p.isLt
  have ht := point_lt t
  have hrow : t.val * 5000 + p.val < 100000 := by omega
  show k0_pay1 (F := Ideal) (iblk0 V c 0 t) (iblk0 V c 1 t) (iblk0 V c 2 t) (ix2 p q)
    = Cert.Layers.projectIn (V c main_arg0) n (V c main_arg3) (((cfg0.win 3).blk t).view.emb (ix2 p q))
  refine (payload_apply _ _ _ p q).trans ?_
  refine Eq.trans ?_ (congrArg (Cert.Layers.projectIn (V c main_arg0) n (V c main_arg3))
    (outBlock_emb t p q ⟨t.val * 5000 + p.val, hrow⟩ rfl)).symm
  refine Finset.sum_congr rfl fun k _ => ?_
  rw [featuresBlock_apply V c t p k ⟨t.val * 5000 + p.val, hrow⟩ rfl, columnBlock_apply V c t p ⟨t.val * 5000 + p.val, hrow⟩ rfl,
    weightsBlock_apply V c t k q, hn]

/-- An index of the result array is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v15).slice (win0_3.rect t)).set ↔ _
  rw [View.set_slice_whole, Rect.mem_set_unit]
  exact Iff.rfl

/-- The 20 blocks tile the result array: row `r` is in the block of point `r / 5000`. -/
theorem cover (i : S100000x64.Idx) :
    ∃ t : Fin cfg0.N, (cfg0.win 3).flush t = true ∧ i ∈ ((cfg0.win 3).blk t).view.set := by
  have hi0 : (i 0).val < 100000 := idx2_lt0 i
  have hi1 : (i 1).val < 64 := idx2_lt1 i
  have hlt : (i 0).val / 5000 < cfg0.N := lt_of_lt_of_eq (by omega) N_0.symm
  obtain ⟨-, -, -, -, -, -, e0, e1⟩ := blockIndices ⟨(i 0).val / 5000, hlt⟩
  refine ⟨⟨(i 0).val / 5000, hlt⟩, flush0_3 _, ?_⟩
  rw [mem_blk]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, hlt⟩ (1 : Fin 2) * 64 ≤ (i 1).val ∧ (i 1).val < win0_3.index ⟨(i 0).val / 5000, hlt⟩ (1 : Fin 2) * 64 + 64
    rw [e1]; omega

/-- The array the first region leaves in its output window is, entry by entry, `∑ k, (x[r,k] · n[r]) · W₁[k,c]`, where
    `n` is the `[100000, 1]` normalisation column read as a vector (`hn`). -/
theorem final (c : Dev nD) (n : Cert.Layers.ShN.Idx → EReal)
    (hn : ∀ r : Fin 100000, V c main_v10 (ix2 r (0 : Fin 1)) = n (ix1 r)) :
    (dat0 V c).arrAt 3 cfg0.N = Cert.Layers.projectIn (V c main_arg0) n (V c main_arg3) :=
  (dat0 V c).arrAt_eq_of_cover 3 (Cert.Layers.projectIn (V c main_arg0) n (V c main_arg3))
    (fun t _ => flushed_eq V c n hn t) cover

end Cert.KernelIdeal.Region0

end
-- ==== Proof.Region1.lean ====
/-
  The second pallas_call (grid of 50 row blocks of 2000), two outputs: the hidden layer `a · diag n_dst + b₁`
  (`Layers.scaleBiasHidden`), and that layer rectified, scaled by the source-degree normalisation and projected by `W₂`
  (`Layers.projectHidden`).
-/
import proofs.«147151_j55113020342885_1_alg».proof.Proof.Gen.KernelIdeal.Frame
import proofs.«147151_j55113020342885_1_alg».proof.Proof.Layers
import proofs.«147151_j55113020342885_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

/-! ## The two payloads at an entry of the block -/

/-- The first payload at entry `(p, q)` of the block: the block of the aggregated array at `(p, q)` times the
    normalisation column's entry of row `p`, plus the bias row's entry of column `q`. -/
theorem hiddenBlock_apply (a : Vec Ideal S2000x64 .f32) (n : Vec Ideal S2000x1 .f32) (b : Vec Ideal S1x64 .f32)
    (p : Fin 2000) (q : Fin 64) :
    k1_pay1 a n b (ix2 p q) = a (ix2 p q) * n (ix2 p (0 : Fin 1)) + b (ix2 (0 : Fin 1) q) := by
  unfold k1_pay1
  show shapeCast S2000x64 a shapeCasts_S2000x64_S2000x64 (ix2 p q)
      * broadcastTo S2000x64 (shapeCast S2000x1 n shapeCasts_S2000x1_S2000x1) broadcasts_S2000x1_S2000x64 (ix2 p q)
      + broadcastTo S2000x64 (shapeCast S1x64 b shapeCasts_S1x64_S1x64) broadcasts_S1x64_S2000x64 (ix2 p q) = _
  rw [shapeCast_self, shapeCast_self, shapeCast_self, Cert.Keepdims.broadcastTo_a1_ab_apply, broadcastTo_1b_ab_apply]

/-! ### The matrix product's dimension numbers, axis by axis -/

theorem lhs_axis0 (i : S2000x40.Idx) (k : dot_S2000x64_S64x40_S2000x40_1_0_0_1_n_n.contr.Idx) :
    (dot_S2000x64_S64x40_S2000x40_1_0_0_1_n_n.lhsIdx i k 0).val = (i 0).val := by
  unfold DotDims.lhsIdx
  rw [dif_neg (show ¬(0 : Fin S2000x64.rank) ∈ dot_S2000x64_S64x40_S2000x40_1_0_0_1_n_n.lhsBatch by decide), dif_pos (show (0 : Fin S2000x64.rank) ∈ dot_S2000x64_S64x40_S2000x40_1_0_0_1_n_n.lhsNonContracting by decide)]
  rfl
theorem lhs_axis1 (i : S2000x40.Idx) (k : dot_S2000x64_S64x40_S2000x40_1_0_0_1_n_n.contr.Idx) :
    (dot_S2000x64_S64x40_S2000x40_1_0_0_1_n_n.lhsIdx i k 1).val = (k ⟨0, by decide⟩).val :=
  dot_S2000x64_S64x40_S2000x40_1_0_0_1_n_n.lhsIdx_val_of_single rfl i k
theorem rhs_axis0 (i : S2000x40.Idx) (k : dot_S2000x64_S64x40_S2000x40_1_0_0_1_n_n.contr.Idx) :
    (dot_S2000x64_S64x40_S2000x40_1_0_0_1_n_n.rhsIdx i k 0).val = (k ⟨0, by decide⟩).val :=
  dot_S2000x64_S64x40_S2000x40_1_0_0_1_n_n.rhsIdx_val_of_single rfl i k
theorem rhs_axis1 (i : S2000x40.Idx) (k : dot_S2000x64_S64x40_S2000x40_1_0_0_1_n_n.contr.Idx) :
    (dot_S2000x64_S64x40_S2000x40_1_0_0_1_n_n.rhsIdx i k 1).val = (i 1).val := by
  unfold DotDims.rhsIdx
  rw [dif_neg (show ¬(1 : Fin S64x40.rank) ∈ dot_S2000x64_S64x40_S2000x40_1_0_0_1_n_n.rhsBatch by decide), dif_pos (show (1 : Fin S64x40.rank) ∈ dot_S2000x64_S64x40_S2000x40_1_0_0_1_n_n.rhsNonContracting by decide)]
  rfl

/-- The matrix product into the zero accumulator at entry `(p, q)`: the sum over the 64 contracted coordinates of the
    left operand's row `p` against the right operand's column `q`. -/
theorem product_apply (x : FVec Ideal S2000x64 .bf16) (w : FVec Ideal S64x40 .bf16) (p : Fin 2000) (q : Fin 40) :
    matmul dot_S2000x64_S64x40_S2000x40_1_0_0_1_n_n none x w (constant (F := Ideal) S2000x40 .f32 0x00000000#32) (ix2 p q)
      = ∑ k : Fin 64, x (ix2 p k) * w (ix2 k q) := by
  show FloatOps.matmul dot_S2000x64_S64x40_S2000x40_1_0_0_1_n_n none x w (constant (F := Ideal) S2000x40 .f32 0x00000000#32) (ix2 p q) = _
  rw [Ideal.matmul_constant_zero_apply, ← Equiv.sum_comp (ValueIdx.contrEquiv1 dot_S2000x64_S64x40_S2000x40_1_0_0_1_n_n 64 rfl rfl).symm]
  refine Finset.sum_congr rfl fun k _ => ?_
  have hk := ValueIdx.contrEquiv1_symm_val dot_S2000x64_S64x40_S2000x40_1_0_0_1_n_n 64 rfl rfl k
  have el : dot_S2000x64_S64x40_S2000x40_1_0_0_1_n_n.lhsIdx (ix2 p q) ((ValueIdx.contrEquiv1 dot_S2000x64_S64x40_S2000x40_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S2000x64_S64x40_S2000x40_1_0_0_1_n_n.rhsIdx (ix2 p q) ((ValueIdx.contrEquiv1 dot_S2000x64_S64x40_S2000x40_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- The second payload at entry `(p, q)` of the block: over the 64 hidden coordinates `k`, the first payload at `(p, k)`
    rectified at the zero word, times the second normalisation column's entry of row `p`, times the weight's entry `(k, q)`. -/
theorem projectedBlock_apply (a : Vec Ideal S2000x64 .f32) (n : Vec Ideal S2000x1 .f32) (b : Vec Ideal S1x64 .f32)
    (s : Vec Ideal S2000x1 .f32) (w : Vec Ideal S64x40 .f32) (p : Fin 2000) (q : Fin 40) :
    k1_pay2 a n b s w (ix2 p q)
      = ∑ k : Fin 64, (max (k1_pay1 a n b (ix2 p k)) (Ideal.ofBits .f32 0x00000000#32) * s (ix2 p (0 : Fin 1))) * w (ix2 k q) := by
  unfold k1_pay2
  refine (product_apply _ _ p q).trans ?_
  refine Finset.sum_congr rfl fun k _ => ?_
  show max (k1_pay1 a n b (ix2 p k)) (Ideal.ofBits .f32 0x00000000#32)
        * broadcastTo S2000x64 (shapeCast S2000x1 s shapeCasts_S2000x1_S2000x1) broadcasts_S2000x1_S2000x64 (ix2 p k) * w (ix2 k q) = _
  rw [shapeCast_self, Cert.Keepdims.broadcastTo_a1_ab_apply]

/-! ## From the blocks to the arrays -/

/-- A whole-block access's offsets, spelt as the constant function. -/
theorem zero_off : (![0, 0] : Fin 2 → Nat) = fun _ => 0 :=
  funext fun a => by match a with | ⟨0, _⟩ => rfl | ⟨1, _⟩ => rfl

/-- The index maps over the grid of 50 points: a row-blocked window's block index at point `t` is `(t, 0)`, a
    whole-array window's is `(0, 0)`. -/
theorem index_facts : ∀ t : Fin cfg1.N, t.val < 50
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

-- the buffer contents the region is entered from
variable (V : (c : Dev nD) → (b : Ref sig .tc) → Buf (Elt Ideal) ((c : Thread nD τ).loc b))

/-- Block `t` of the aggregated array: entry `(p, q)` is the array's entry `(2000 t + p, q)`. -/
theorem aggBlock_apply (c : Dev nD) (t : Fin cfg1.N) (p : Fin 2000) (q : Fin 64) (r : Fin 100000)
    (hr : r.val = t.val * 2000 + p.val) : iblk1 V c 0 t (ix2 p q) = V c main_v25 (ix2 r q) := by
  obtain ⟨-, e0, e1, -⟩ := index_facts t
  show V c main_v25 (((cfg1.win 0).blk t).view.emb (ix2 p q)) = _
  refine congrArg (V c main_v25) (funext fun a => Fin.ext ?_)
  match a with
  | ⟨0, _⟩ => show win1_0.index t (0 : Fin 2) * 2000 + 1 * p.val = r.val; omega
  | ⟨1, _⟩ => show win1_0.index t (1 : Fin 2) * 64 + 1 * q.val = q.val; omega

/-- Block `t` of the first normalisation column: entry `(p, 0)` is the column's entry of row `2000 t + p`. -/
theorem dstBlock_apply (c : Dev nD) (t : Fin cfg1.N) (p : Fin 2000) (r : Fin 100000)
    (hr : r.val = t.val * 2000 + p.val) : iblk1 V c 1 t (ix2 p (0 : Fin 1)) = V c main_v14 (ix2 r (0 : Fin 1)) := by
  obtain ⟨-, -, -, e0, e1, -⟩ := index_facts t
  show V c main_v14 (((cfg1.win 1).blk t).view.emb (ix2 p (0 : Fin 1))) = _
  refine congrArg (V c main_v14) (funext fun a => Fin.ext ?_)
  match a with
  | ⟨0, _⟩ => show win1_1.index t (0 : Fin 2) * 2000 + 1 * p.val = r.val; omega
  | ⟨1, _⟩ => show win1_1.index t (1 : Fin 2) * 1 + 1 * (0 : Fin 1).val = (0 : Fin 1).val; omega

/-- The bias row is one block, the same at every point. -/
theorem biasBlock_apply (c : Dev nD) (t : Fin cfg1.N) (q : Fin 64) :
    iblk1 V c 2 t (ix2 (0 : Fin 1) q) = V c main_v26 (ix2 (0 : Fin 1) q) := by
  obtain ⟨-, -, -, -, -, e0, e1, -⟩ := index_facts t
  show V c main_v26 (((cfg1.win 2).blk t).view.emb (ix2 (0 : Fin 1) q)) = _
  refine congrArg (V c main_v26) (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 64 + 1 * q.val = q.val; omega

/-- Block `t` of the second normalisation column: entry `(p, 0)` is the column's entry of row `2000 t + p`. -/
theorem srcBlock_apply (c : Dev nD) (t : Fin cfg1.N) (p : Fin 2000) (r : Fin 100000)
    (hr : r.val = t.val * 2000 + p.val) : iblk1 V c 3 t (ix2 p (0 : Fin 1)) = V c main_v10 (ix2 r (0 : Fin 1)) := by
  obtain ⟨-, -, -, -, -, -, -, e0, e1, -⟩ := index_facts t
  show V c main_v10 (((cfg1.win 3).blk t).view.emb (ix2 p (0 : Fin 1))) = _
  refine congrArg (V c main_v10) (funext fun a => Fin.ext ?_)
  match a with
  | ⟨0, _⟩ => show win1_3.index t (0 : Fin 2) * 2000 + 1 * p.val = r.val; omega
  | ⟨1, _⟩ => show win1_3.index t (1 : Fin 2) * 1 + 1 * (0 : Fin 1).val = (0 : Fin 1).val; omega

/-- The second weight matrix is one block, the same at every point. -/
theorem weightBlock_apply (c : Dev nD) (t : Fin cfg1.N) (k : Fin 64) (q : Fin 40) :
    iblk1 V c 4 t (ix2 k q) = V c main_arg5 (ix2 k q) := by
  obtain ⟨-, -, -, -, -, -, -, -, -, e0, e1, -⟩ := index_facts t
  show V c main_arg5 (((cfg1.win 4).blk t).view.emb (ix2 k q)) = _
  refine congrArg (V c main_arg5) (funext fun a => Fin.ext ?_)
  match a with
  | ⟨0, _⟩ => show win1_4.index t (0 : Fin 2) * 64 + 1 * k.val = k.val; omega
  | ⟨1, _⟩ => show win1_4.index t (1 : Fin 2) * 40 + 1 * q.val = q.val; omega

/-! ### The hidden layer (output window 5) -/

/-- WHAT POINT `t` WRITES BACK to the hidden array is block `t` of the layer function of the arrays the region was entered with. -/
theorem hidden_flushed (c : Dev nD) (nd : Cert.Layers.ShN.Idx → EReal) (b : Cert.Layers.ShB1.Idx → EReal)
    (hnd : ∀ r : Fin 100000, V c main_v14 (ix2 r (0 : Fin 1)) = nd (ix1 r))
    (hb : ∀ k : Fin 64, V c main_v26 (ix2 (0 : Fin 1) k) = b (ix1 k)) (t : Fin cfg1.N) :
    (dat1 V c).flushed 5 t
      = ((cfg1.win 5).blk t).view.read (Elt Ideal) (Cert.Layers.scaleBiasHidden (V c main_v25) nd b) := by
  show (cfg1.win 5).cut (grid1.coords t) ((dat1 V c).after 5 t) = _
  rw [after1_5]
  unfold out1_5
  rw [View.canon_unit_zero zero_off]
  simp only [View.ld_unit_zero (S := S2000x64) zero_off, View.ld_unit_zero (S := S2000x1) zero_off,
    View.ld_unit_zero (S := S1x64) zero_off]
  obtain ⟨ht, -, -, -, -, -, -, -, -, -, -, e0, e1, -⟩ := index_facts t
  funext j
  obtain ⟨p, q, rfl⟩ : ∃ (p : Fin 2000) (q : Fin 64), j = ix2 p q := ⟨j 0, j 1, eq_ix2 j⟩
  have hr : t.val * 2000 + p.val < 100000 := by have := p.isLt; omega
  show k1_pay1 (iblk1 V c 0 t) (iblk1 V c 1 t) (iblk1 V c 2 t) (ix2 p q)
      = Cert.Layers.scaleBiasHidden (V c main_v25) nd b (((cfg1.win 5).blk t).view.emb (ix2 p q))
  have hi : ((cfg1.win 5).blk t).view.emb (ix2 p q) = ix2 (⟨t.val * 2000 + p.val, hr⟩ : Fin 100000) q :=
    funext fun a => Fin.ext (by
      match a with
      | ⟨0, _⟩ => show win1_5.index t (0 : Fin 2) * 2000 + 1 * p.val = t.val * 2000 + p.val; omega
      | ⟨1, _⟩ => show win1_5.index t (1 : Fin 2) * 64 + 1 * q.val = q.val; omega)
  rw [hi, hiddenBlock_apply, aggBlock_apply V c t p q ⟨_, hr⟩ rfl, dstBlock_apply V c t p ⟨_, hr⟩ rfl, biasBlock_apply,
    hnd, hb]
  rfl

/-- An index of the hidden array is in point `t`'s block iff each coordinate is in the block's range on its axis. -/
theorem hidden_mem_blk (t : Fin cfg1.N) (i : S100000x64.Idx) :
    i ∈ ((cfg1.win 5).blk t).view.set ↔ ∀ a : Fin 2, win1_5.index t a * S2000x64.size a ≤ (i a).val
      ∧ (i a).val < win1_5.index t a * S2000x64.size a + S2000x64.size a := by
  show i ∈ ((View.whole main_v27_0).slice (win1_5.rect t)).set ↔ _
  rw [View.set_slice_whole, Rect.mem_set_unit]
  exact Iff.rfl

/-- The 50 blocks of 2000 rows tile the hidden array: row `r` is in the block of point `r / 2000`. -/
theorem hidden_cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 2000 :=
    ⟨⟨(i 0).val / 2000, by rw [show cfg1.N = 50 from N_1]; omega⟩, rfl⟩
  obtain ⟨-, -, -, -, -, -, -, -, -, -, -, e0, e1, -⟩ := index_facts t
  refine ⟨t, flush1_5 t, ?_⟩
  rw [hidden_mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- The first output array after the region: entry `(r, c)` is `a[r,c] · n_dst[r] + b₁[c]`, with `n_dst` the `[100000, 1]`
    column read as a vector (`hnd`) and `b₁` the `[1, 64]` row read as a vector (`hb`). -/
theorem hidden (c : Dev nD) (nd : Cert.Layers.ShN.Idx → EReal) (b : Cert.Layers.ShB1.Idx → EReal)
    (hnd : ∀ r : Fin 100000, V c main_v14 (ix2 r (0 : Fin 1)) = nd (ix1 r))
    (hb : ∀ k : Fin 64, V c main_v26 (ix2 (0 : Fin 1) k) = b (ix1 k)) :
    (dat1 V c).arrAt 5 cfg1.N = Cert.Layers.scaleBiasHidden (V c main_v25) nd b :=
  (dat1 V c).arrAt_eq_of_cover 5 _ (fun t _ => hidden_flushed V c nd b hnd hb t) hidden_cover

/-! ### The projected layer (output window 6) -/

/-- WHAT POINT `t` WRITES BACK to the projected array is block `t` of the layer function of the arrays the region was
    entered with: the contraction runs inside one row, and each factor of a term is an entry of row `2000 t + p` or of a
    whole-array operand. -/
theorem projected_flushed (c : Dev nD) (nd ns : Cert.Layers.ShN.Idx → EReal) (b : Cert.Layers.ShB1.Idx → EReal)
    (hnd : ∀ r : Fin 100000, V c main_v14 (ix2 r (0 : Fin 1)) = nd (ix1 r))
    (hb : ∀ k : Fin 64, V c main_v26 (ix2 (0 : Fin 1) k) = b (ix1 k))
    (hns : ∀ r : Fin 100000, V c main_v10 (ix2 r (0 : Fin 1)) = ns (ix1 r)) (t : Fin cfg1.N) :
    (dat1 V c).flushed 6 t
      = ((cfg1.win 6).blk t).view.read (Elt Ideal)
          (Cert.Layers.projectHidden (Cert.Layers.scaleBiasHidden (V c main_v25) nd b) ns (V c main_arg5)) := by
  show (cfg1.win 6).cut (grid1.coords t) ((dat1 V c).after 6 t) = _
  rw [after1_6]
  unfold out1_6
  rw [View.canon_unit_zero zero_off]
  simp only [View.ld_unit_zero (S := S2000x64) zero_off, View.ld_unit_zero (S := S2000x1) zero_off,
    View.ld_unit_zero (S := S1x64) zero_off, View.ld_unit_zero (S := S64x40) zero_off]
  obtain ⟨ht, -, -, -, -, -, -, -, -, -, -, -, -, e0, e1⟩ := index_facts t
  funext j
  obtain ⟨p, q, rfl⟩ : ∃ (p : Fin 2000) (q : Fin 40), j = ix2 p q := ⟨j 0, j 1, eq_ix2 j⟩
  have hr : t.val * 2000 + p.val < 100000 := by have := p.isLt; omega
  show k1_pay2 (iblk1 V c 0 t) (iblk1 V c 1 t) (iblk1 V c 2 t) (iblk1 V c 3 t) (iblk1 V c 4 t) (ix2 p q)
      = Cert.Layers.projectHidden (Cert.Layers.scaleBiasHidden (V c main_v25) nd b) ns (V c main_arg5)
          (((cfg1.win 6).blk t).view.emb (ix2 p q))
  have hi : ((cfg1.win 6).blk t).view.emb (ix2 p q) = ix2 (⟨t.val * 2000 + p.val, hr⟩ : Fin 100000) q :=
    funext fun a => Fin.ext (by
      match a with
      | ⟨0, _⟩ => show win1_6.index t (0 : Fin 2) * 2000 + 1 * p.val = t.val * 2000 + p.val; omega
      | ⟨1, _⟩ => show win1_6.index t (1 : Fin 2) * 40 + 1 * q.val = q.val; omega)
  rw [hi, projectedBlock_apply]
  show _ = ∑ k : Fin 64, (max (Cert.Layers.scaleBiasHidden (V c main_v25) nd b (ix2 (⟨t.val * 2000 + p.val, hr⟩ : Fin 100000) k))
      (Ideal.ofBits .f32 0x00000000#32) * ns (ix1 (⟨t.val * 2000 + p.val, hr⟩ : Fin 100000))) * V c main_arg5 (ix2 k q)
  refine Finset.sum_congr rfl fun k _ => ?_
  rw [hiddenBlock_apply, aggBlock_apply V c t p k ⟨_, hr⟩ rfl, dstBlock_apply V c t p ⟨_, hr⟩ rfl, biasBlock_apply,
    srcBlock_apply V c t p ⟨_, hr⟩ rfl, weightBlock_apply, hnd, hb, hns]
  rfl

/-- An index of the projected array is in point `t`'s block iff each coordinate is in the block's range on its axis. -/
theorem projected_mem_blk (t : Fin cfg1.N) (i : S100000x40.Idx) :
    i ∈ ((cfg1.win 6).blk t).view.set ↔ ∀ a : Fin 2, win1_6.index t a * S2000x40.size a ≤ (i a).val
      ∧ (i a).val < win1_6.index t a * S2000x40.size a + S2000x40.size a := by
  show i ∈ ((View.whole main_v27_1).slice (win1_6.rect t)).set ↔ _
  rw [View.set_slice_whole, Rect.mem_set_unit]
  exact Iff.rfl

/-- The 50 blocks of 2000 rows tile the projected array: row `r` is in the block of point `r / 2000`. -/
theorem projected_cover (i : S100000x40.Idx) :
    ∃ t : Fin cfg1.N, (cfg1.win 6).flush t = true ∧ i ∈ ((cfg1.win 6).blk t).view.set := by
  have hi0 : (i 0).val < 100000 := (i 0).isLt
  have hi1 : (i 1).val < 40 := (i 1).isLt
  obtain ⟨t, ht⟩ : ∃ t : Fin cfg1.N, t.val = (i 0).val / 2000 :=
    ⟨⟨(i 0).val / 2000, by rw [show cfg1.N = 50 from N_1]; omega⟩, rfl⟩
  obtain ⟨-, -, -, -, -, -, -, -, -, -, -, -, -, e0, e1⟩ := index_facts t
  refine ⟨t, flush1_6 t, ?_⟩
  rw [projected_mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 40 ≤ (i 1).val ∧ (i 1).val < win1_6.index t (1 : Fin 2) * 40 + 40; omega

/-- The second output array after the region: entry `(r, c)` is `∑ k, (max h[r,k] 0 · n_src[r]) · W₂[k,c]` over the hidden
    layer `h` of `hidden`, with `n_src` the other `[100000, 1]` column read as a vector (`hns`). -/
theorem projected (c : Dev nD) (nd ns : Cert.Layers.ShN.Idx → EReal) (b : Cert.Layers.ShB1.Idx → EReal)
    (hnd : ∀ r : Fin 100000, V c main_v14 (ix2 r (0 : Fin 1)) = nd (ix1 r))
    (hb : ∀ k : Fin 64, V c main_v26 (ix2 (0 : Fin 1) k) = b (ix1 k))
    (hns : ∀ r : Fin 100000, V c main_v10 (ix2 r (0 : Fin 1)) = ns (ix1 r)) :
    (dat1 V c).arrAt 6 cfg1.N
      = Cert.Layers.projectHidden (Cert.Layers.scaleBiasHidden (V c main_v25) nd b) ns (V c main_arg5) :=
  (dat1 V c).arrAt_eq_of_cover 6 _ (fun t _ => projected_flushed V c nd ns b hnd hb hns t) projected_cover

end Cert.KernelIdeal.Region1

end
-- ==== Proof.Region2.lean ====
/-
  The third pallas_call (grid of 50 row blocks of 2000): after it, its output array is `a · diag n_dst + b₂`
  (`Layers.scaleBiasOut`) of the arrays it was entered with.
-/
import proofs.«147151_j55113020342885_1_alg».proof.Proof.Gen.KernelIdeal.Frame
import proofs.«147151_j55113020342885_1_alg».proof.Proof.Layers
import proofs.«147151_j55113020342885_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen

/-- The zero offsets of a whole-block load or store, as the constant function. -/
theorem zeroOffsets : (![0, 0] : Fin 2 → Nat) = fun _ => 0 := funext fun a => by fin_cases a <;> rfl

/-- The body's stored value at row `p`, column `q` of a block: the aggregate's entry times the row's entry of the
    normalisation column, plus the bias row's entry of that column. -/
theorem payload_apply (x0 : Vec Ideal S2000x40 .f32) (x1 : Vec Ideal S2000x1 .f32) (x2 : Vec Ideal S1x40 .f32)
    (p : Fin 2000) (q : Fin 40) :
    k2_pay1 x0 x1 x2 (ix2 p q) = x0 (ix2 p q) * x1 (ix2 p (0 : Fin 1)) + x2 (ix2 (0 : Fin 1) q) := by
  unfold k2_pay1
  rw [shapeCast_self, shapeCast_self, shapeCast_self]
  exact (congrArg₂ (· + ·) (congrArg (x0 (ix2 p q) * ·) (Cert.Keepdims.broadcastTo_a1_ab_apply x1 _ p q))
    (broadcastTo_1b_ab_apply x2 _ p q))

/-- The printed index maps over the grid: point `t` is row block `t` of the three row-blocked windows, and the
    column block index is always `0`; the bias row's window is the whole array at every point. -/
theorem index_facts : ∀ t : Fin cfg2.N, win2_3.index t (0 : Fin 2) = t.val
    ∧ win2_3.index t (1 : Fin 2) = 0
    ∧ win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0 :=
  (by decide +kernel : ∀ t : Fin grid2.N, _)

-- the buffer contents the region is entered from
variable (V : (c : Dev nD) → (b : Ref sig .tc) → Buf (Elt Ideal) ((c : Thread nD τ).loc b))

/-- What point `t` writes back is block `t` of `a · diag n_dst + b₂`: entry `(p, q)` of the block reads the aggregate at
    row `2000 t + p`, the normalisation of that row, and the bias of column `q`. -/
theorem flushed_eq (c : Dev nD) (nd : Cert.Layers.ShN.Idx → EReal) (b : Cert.Layers.ShB2.Idx → EReal)
    (hnd : ∀ r : Fin 100000, V c main_v14 (ix2 r (0 : Fin 1)) = nd (ix1 r))
    (hb : ∀ k : Fin 40, V c main_v38 (ix2 (0 : Fin 1) k) = b (ix1 k)) (t : Fin cfg2.N) :
    (dat2 V c).flushed 3 t
      = ((cfg2.win 3).blk t).view.read (Elt Ideal) (Cert.Layers.scaleBiasOut (V c main_v37) nd b) := by
  show (cfg2.win 3).cut (grid2.coords t) ((dat2 V c).after 3 t) = _
  rw [after2_3]
  unfold out2_3
  rw [View.canon_unit_zero zeroOffsets]
  simp only [View.ld_unit_zero (S := S2000x40) zeroOffsets, View.ld_unit_zero (S := S2000x1) zeroOffsets,
    View.ld_unit_zero (S := S1x40) zeroOffsets]
  funext j
  obtain ⟨p, q, rfl⟩ : ∃ (p : Fin 2000) (q : Fin 40), j = ix2 p q := ⟨j 0, j 1, eq_ix2 j⟩
  obtain ⟨e3r, e3c, e0r, e0c, e1r, e1c, e2r, e2c⟩ := index_facts t
  have hp : p.val < 2000 := p.isLt
  have hq : q.val < 40 := q.isLt
  have ht : t.val < 50 := t.isLt
  -- the row of the array under row `p` of block `t`
  let r : Fin 100000 := ⟨t.val * 2000 + p.val, by omega⟩
  have h3 : ((cfg2.win 3).blk t).view.emb (ix2 p q) = ix2 r q := by
    funext a; apply Fin.ext
    match a with
    | ⟨0, _⟩ => show win2_3.index t (0 : Fin 2) * 2000 + 1 * p.val = t.val * 2000 + p.val; omega
    | ⟨1, _⟩ => show win2_3.index t (1 : Fin 2) * 40 + 1 * q.val = q.val; omega
  have h0 : ((cfg2.win 0).blk t).view.emb (ix2 p q) = ix2 r q := by
    funext a; apply Fin.ext
    match a with
    | ⟨0, _⟩ => show win2_0.index t (0 : Fin 2) * 2000 + 1 * p.val = t.val * 2000 + p.val; omega
    | ⟨1, _⟩ => show win2_0.index t (1 : Fin 2) * 40 + 1 * q.val = q.val; omega
  have h1 : ((cfg2.win 1).blk t).view.emb (ix2 p (0 : Fin 1)) = ix2 r (0 : Fin 1) := by
    funext a; apply Fin.ext
    match a with
    | ⟨0, _⟩ => show win2_1.index t (0 : Fin 2) * 2000 + 1 * p.val = t.val * 2000 + p.val; omega
    | ⟨1, _⟩ => show win2_1.index t (1 : Fin 2) * 1 + 1 * 0 = 0; omega
  have h2 : ((cfg2.win 2).blk t).view.emb (ix2 (0 : Fin 1) q) = ix2 (0 : Fin 1) q := by
    funext a; apply Fin.ext
    match a with
    | ⟨0, _⟩ => show win2_2.index t (0 : Fin 2) * 1 + 1 * 0 = 0; omega
    | ⟨1, _⟩ => show win2_2.index t (1 : Fin 2) * 40 + 1 * q.val = q.val; omega
  show k2_pay1 (iblk2 V c 0 t) (iblk2 V c 1 t) (iblk2 V c 2 t) (ix2 p q)
    = Cert.Layers.scaleBiasOut (V c main_v37) nd b (((cfg2.win 3).blk t).view.emb (ix2 p q))
  refine (payload_apply _ _ _ p q).trans ?_
  have k0 : @Eq EReal (iblk2 V c 0 t (ix2 p q)) (V c main_v37 (ix2 r q)) := congrArg (V c main_v37) h0
  have k1 : @Eq EReal (iblk2 V c 1 t (ix2 p (0 : Fin 1))) (nd (ix1 r)) := (congrArg (V c main_v14) h1).trans (hnd r)
  have k2 : @Eq EReal (iblk2 V c 2 t (ix2 (0 : Fin 1) q)) (b (ix1 q)) := (congrArg (V c main_v38) h2).trans (hb q)
  rw [h3]
  exact congrArg₂ (· + ·) (congrArg₂ (· * ·) k0 k1) k2

/-- An index of the output array is in point `t`'s block iff each coordinate is in the block's range on its axis. -/
theorem mem_blk (t : Fin cfg2.N) (i : S100000x40.Idx) :
    i ∈ ((cfg2.win 3).blk t).view.set ↔ ∀ a : Fin 2, win2_3.index t a * S2000x40.size a ≤ (i a).val
      ∧ (i a).val < win2_3.index t a * S2000x40.size a + S2000x40.size a := by
  show i ∈ ((View.whole main_v39).slice (win2_3.rect t)).set ↔ _
  rw [View.set_slice_whole, Rect.mem_set_unit]
  exact Iff.rfl

/-- Every index of the output array is in some point's block: row `r` is in the block of point `r / 2000`. -/
theorem cover (i : S100000x40.Idx) :
    ∃ t : Fin cfg2.N, (cfg2.win 3).flush t = true ∧ i ∈ ((cfg2.win 3).blk t).view.set := by
  have hi0 : (i 0).val < 100000 := (i 0).isLt
  have hi1 : (i 1).val < 40 := (i 1).isLt
  refine ⟨⟨(i 0).val / 2000, by show (i 0).val / 2000 < 50; omega⟩, flush2_3 _, ?_⟩
  rw [mem_blk]
  obtain ⟨e0, e1, -⟩ := index_facts ⟨(i 0).val / 2000, by show (i 0).val / 2000 < 50; omega⟩
  intro a
  match a with
  | ⟨0, _⟩ =>
    show win2_3.index _ (0 : Fin 2) * 2000 ≤ (i 0).val ∧ (i 0).val < win2_3.index _ (0 : Fin 2) * 2000 + 2000
    rw [e0]; show (i 0).val / 2000 * 2000 ≤ (i 0).val ∧ (i 0).val < (i 0).val / 2000 * 2000 + 2000; omega
  | ⟨1, _⟩ =>
    show win2_3.index _ (1 : Fin 2) * 40 ≤ (i 1).val ∧ (i 1).val < win2_3.index _ (1 : Fin 2) * 40 + 40
    rw [e1]; omega

/-- The output array after the region: entry `(r, c)` is `a[r,c] · n_dst[r] + b₂[c]`, with `n_dst` the `[100000, 1]`
    column read as a vector (`hnd`) and `b₂` the `[1, 40]` row read as a vector (`hb`). -/
theorem final (c : Dev nD) (nd : Cert.Layers.ShN.Idx → EReal) (b : Cert.Layers.ShB2.Idx → EReal)
    (hnd : ∀ r : Fin 100000, V c main_v14 (ix2 r (0 : Fin 1)) = nd (ix1 r))
    (hb : ∀ k : Fin 40, V c main_v38 (ix2 (0 : Fin 1) k) = b (ix1 k)) :
    (dat2 V c).arrAt 3 cfg2.N = Cert.Layers.scaleBiasOut (V c main_v37) nd b :=
  (dat2 V c).arrAt_eq_of_cover 3 (Cert.Layers.scaleBiasOut (V c main_v37) nd b)
    (fun t _ => flushed_eq V c nd b hnd hb t) cover

end Cert.KernelIdeal.Region2

end
-- ==== Proof.Results.lean ====
/-
  The idealized kernel program's two results as closed functions of its arguments.

  Chaining the three regions through the host stretches between them: the first region leaves the projection
  `(X · diag n_src) W₁`; the second stretch aggregates it over the edges; the second region leaves the hidden layer
  `h = a · diag n_dst + b₁` (the program's second result) and the projection `(relu h · diag n_src) W₂`; the third stretch
  aggregates that; the third region leaves `a' · diag n_dst + b₂` (the first result).
-/
import proofs.«147151_j55113020342885_1_alg».proof.Proof.Stretches
import proofs.«147151_j55113020342885_1_alg».proof.Proof.Region0
import proofs.«147151_j55113020342885_1_alg».proof.Proof.Region1
import proofs.«147151_j55113020342885_1_alg».proof.Proof.Region2
import proofs.«147151_j55113020342885_1_alg».proof.Proof.ResultsRun

set_option maxRecDepth 16384

noncomputable section

namespace Cert.KernelIdeal.Results

open Idealize.ShloMosaic Idealize.ShloMosaic.TcCoe Idealize.SL.Sem Idealize.ShloMosaic.ValueIdx
open Cert.KernelIdeal Cert.KernelIdeal.Gen Cert.KernelIdeal.Stretches Cert.Layers

/-- The hidden layer: `S((X · diag n_src) W₁) · diag n_dst + b₁`. -/
def hiddenOf (x : (⟨S100000x256, .f32⟩ : BufTy).Contents (Elt Ideal)) (src dst : (⟨S1600000, .i32⟩ : BufTy).Contents (Elt Ideal))
    (w1 : (⟨S256x64, .f32⟩ : BufTy).Contents (Elt Ideal)) (b1 : (⟨S64, .f32⟩ : BufTy).Contents (Elt Ideal)) :
    (⟨S100000x64, .f32⟩ : BufTy).Contents (Elt Ideal) :=
  scaleBiasHidden (edgeSumHidden (projectIn x (degNorm src) w1) src dst) (degNorm dst) b1

/-- The output layer: `S((relu h · diag n_src) W₂) · diag n_dst + b₂` over the hidden layer `h`. -/
def outOf (x : (⟨S100000x256, .f32⟩ : BufTy).Contents (Elt Ideal)) (src dst : (⟨S1600000, .i32⟩ : BufTy).Contents (Elt Ideal))
    (w1 : (⟨S256x64, .f32⟩ : BufTy).Contents (Elt Ideal)) (b1 : (⟨S64, .f32⟩ : BufTy).Contents (Elt Ideal))
    (w2 : (⟨S64x40, .f32⟩ : BufTy).Contents (Elt Ideal)) (b2 : (⟨S40, .f32⟩ : BufTy).Contents (Elt Ideal)) :
    (⟨S100000x40, .f32⟩ : BufTy).Contents (Elt Ideal) :=
  scaleBiasOut (edgeSumOut (projectHidden (hiddenOf x src dst w1 b1) (degNorm src) w2) src dst) (degNorm dst) b2

variable (m : (ℓ : Loc nD τ sig) → Buf (Elt Ideal) ℓ) (ρ : Dev nD → PrngReg)

/-- What the first region leaves: the first projection of the launch arrays. -/
theorem projection1 (c : Dev nD) : (dat0 (V1 m ρ) c).arrAt 3 cfg0.N
    = projectIn (m ((c : Thread nD τ).loc main_arg0)) (degNorm (m ((c : Thread nD τ).loc main_arg1))) (m ((c : Thread nD τ).loc main_arg3)) := by
  have h := Region0.final (V1 m ρ) c (degNorm (m ((c : Thread nD τ).loc main_arg1))) (fun r => by
    show W1 m ρ c (Proc.devRef .tc main_v10) (ix2 r (0 : Fin 1)) = _
    rw [W1_v10]; exact column_apply _ r)
  rw [h]
  show projectIn (W1 m ρ c (Proc.devRef .tc main_arg0)) _ (W1 m ρ c (Proc.devRef .tc main_arg3)) = _
  rw [W1_arg0, W1_arg3]

/-- What the second region leaves in its first output: the hidden layer. -/
theorem hidden (c : Dev nD) : (dat1 (V3 m ρ) c).arrAt 5 cfg1.N
    = hiddenOf (m ((c : Thread nD τ).loc main_arg0)) (m ((c : Thread nD τ).loc main_arg1)) (m ((c : Thread nD τ).loc main_arg2)) (m ((c : Thread nD τ).loc main_arg3)) (m ((c : Thread nD τ).loc main_arg4)) := by
  have h := Region1.hidden (V3 m ρ) c (degNorm (m ((c : Thread nD τ).loc main_arg2))) (m ((c : Thread nD τ).loc main_arg4))
    (fun r => by
      show W3 m ρ c (Proc.devRef .tc main_v14) (ix2 r (0 : Fin 1)) = _
      rw [W3_v14]; exact column_apply _ r)
    (fun k => by
      show W3 m ρ c (Proc.devRef .tc main_v26) (ix2 (0 : Fin 1) k) = _
      rw [W3_v26]; exact row64_apply _ k)
  rw [h]
  show scaleBiasHidden (W3 m ρ c (Proc.devRef .tc main_v25)) _ _ = _
  rw [W3_v25, projection1]
  rfl

/-- What the second region leaves in its second output: the second projection, of the hidden layer. -/
theorem projection2 (c : Dev nD) : (dat1 (V3 m ρ) c).arrAt 6 cfg1.N
    = projectHidden (hiddenOf (m ((c : Thread nD τ).loc main_arg0)) (m ((c : Thread nD τ).loc main_arg1)) (m ((c : Thread nD τ).loc main_arg2)) (m ((c : Thread nD τ).loc main_arg3)) (m ((c : Thread nD τ).loc main_arg4)))
        (degNorm (m ((c : Thread nD τ).loc main_arg1))) (m ((c : Thread nD τ).loc main_arg5)) := by
  have h := Region1.projected (V3 m ρ) c (degNorm (m ((c : Thread nD τ).loc main_arg2))) (degNorm (m ((c : Thread nD τ).loc main_arg1))) (m ((c : Thread nD τ).loc main_arg4))
    (fun r => by
      show W3 m ρ c (Proc.devRef .tc main_v14) (ix2 r (0 : Fin 1)) = _
      rw [W3_v14]; exact column_apply _ r)
    (fun k => by
      show W3 m ρ c (Proc.devRef .tc main_v26) (ix2 (0 : Fin 1) k) = _
      rw [W3_v26]; exact row64_apply _ k)
    (fun r => by
      show W3 m ρ c (Proc.devRef .tc main_v10) (ix2 r (0 : Fin 1)) = _
      rw [W3_v10]; exact column_apply _ r)
  rw [h]
  show projectHidden (scaleBiasHidden (W3 m ρ c (Proc.devRef .tc main_v25)) _ _) _ (W3 m ρ c (Proc.devRef .tc main_arg5)) = _
  rw [W3_v25, projection1, W3_arg5]
  rfl

/-- What the third region leaves: the output layer. -/
theorem out (c : Dev nD) : (dat2 (V5 m ρ) c).arrAt 3 cfg2.N
    = outOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h := Region2.final (V5 m ρ) c (degNorm (m ((c : Thread nD τ).loc main_arg2))) (m ((c : Thread nD τ).loc main_arg6))
    (fun r => by
      show W5 m ρ c (Proc.devRef .tc main_v14) (ix2 r (0 : Fin 1)) = _
      rw [W5_v14]; exact column_apply _ r)
    (fun k => by
      show W5 m ρ c (Proc.devRef .tc main_v38) (ix2 (0 : Fin 1) k) = _
      rw [W5_v38]; exact row40_apply _ k)
  rw [h]
  show scaleBiasOut (W5 m ρ c (Proc.devRef .tc main_v37)) _ _ = _
  rw [W5_v37, projection2]
  rfl

/-- THE RUN, READ: every weakly fair execution of the idealized kernel program terminates without a fault, its first
    result the output layer and its second the hidden layer of the launch arrays, the arguments as launched. -/
theorem run : θ_run defs (onTc (τ := τ) (main (F := Ideal))) ⟨m, fun _ => 0, ρ⟩ (fun r => ∀ c : Dev nD,
      r.2.mem ((c.tc : Thread nD τ).loc main_v39)
        = outOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v27_0)
        = hiddenOf (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨(h c).1.trans ((W6_v39 m ρ c).trans (out m ρ c)),
       (h c).2.1.trans ((W6_v27_0 m ρ c).trans (hidden m ρ c)),
       (h c).2.2⟩)
    (Cert.KernelIdeal.GenRun.run_results (F := Ideal) m ρ)

end Cert.KernelIdeal.Results

end
-- ==== Proof.RefRead.lean ====
/-
  The reference program's run and its stages read at an index (both generated): each host operation's result as a
  function of the arguments, and that result at an index from its operands at an index. The comparison of the
  reference's dense steps with the four layer functions is built on these.
-/
import proofs.«147151_j55113020342885_1_alg».proof.Proof.Gen.ReferenceIdeal.Run
import proofs.«147151_j55113020342885_1_alg».proof.Proof.Gen.ReferenceIdeal.Read
-- ==== Proof.RefStages.lean ====
/-
  The reference's stages as the four layer functions of `Layers`, the two edge aggregations (a gather by the source
  index, then a segment sum by the destination index) kept closed as `edgeSumHidden` / `edgeSumOut`: the reference
  scales, projects, aggregates, scales and adds the bias, twice, and each dense step read at an index is the
  corresponding layer function.
-/
import proofs.«147151_j55113020342885_1_alg».proof.Proof.RefRead
import proofs.«147151_j55113020342885_1_alg».proof.Proof.Layers
import Idealize.ShloMosaic.Lib.Pipeline.Value
import Idealize.ShloMosaic.Lib.ValueIdx
import Idealize.ShloMosaic.PureOps.Ideal.Laws

noncomputable section

namespace Cert.ReferenceIdeal.RefStages

open Idealize.ShloMosaic Idealize.ShloMosaic.TcCoe Idealize.SL.Sem Idealize.ShloMosaic.ValueIdx
open Cert.ReferenceIdeal Cert.ReferenceIdeal.Gen Cert.ReferenceIdeal.Read

/-- The first edge aggregation: rows of `h` gathered by the (wrapped) source index, summed into the destination rows. -/
def edgeSumHidden (h : (⟨S100000x64, .f32⟩ : BufTy).Contents (Elt Ideal)) (x1 x2 : (⟨S1600000, .i32⟩ : BufTy).Contents (Elt Ideal)) :
    (⟨S100000x64, .f32⟩ : BufTy).Contents (Elt Ideal) :=
  Host.scatterAdd (F := Ideal) (φ := .f32) scatter_S100000x64_S1600000x1_S1600000x64_1_0_0_1 (val_main_v24 (F := Ideal)) (val_main_v25 (F := Ideal) x2)
    (Host.gather (α := Ideal .f32) gather_S100000x64_S1600000x1_S1600000x64_1_0_n_n_0_1_164 h (val_main_v22 (F := Ideal) x1))

/-- The second edge aggregation, on 40 columns. -/
def edgeSumOut (h : (⟨S100000x40, .f32⟩ : BufTy).Contents (Elt Ideal)) (x1 x2 : (⟨S1600000, .i32⟩ : BufTy).Contents (Elt Ideal)) :
    (⟨S100000x40, .f32⟩ : BufTy).Contents (Elt Ideal) :=
  Host.scatterAdd (F := Ideal) (φ := .f32) scatter_S100000x40_S1600000x1_S1600000x40_1_0_0_1 (val_main_v45 (F := Ideal)) (val_main_v46 (F := Ideal) x2)
    (Host.gather (α := Ideal .f32) gather_S100000x40_S1600000x1_S1600000x40_1_0_n_n_0_1_140 h (val_main_v43 (F := Ideal) x1))

/-! ### Index equations

  The reference reaches an operand through composed index functions (a broadcast of a per-node vector to a column,
  then along the rows; a bias to a row, then down the columns; a contraction's left and right operand). At a point
  given by its coordinates each composite is the coordinate constructor one expects. -/

/-- The first contraction's left operand at `(r, c)`, term `k`: entry `(r, k)`. -/
theorem lidx_v16 (r : Fin 100000) (c : Fin 64) (k : Fin 256) : lidx_main_v16 (ix2 r c) k = ix2 r k :=
  funext fun a => Fin.ext (by match a with | ⟨0, _⟩ => rfl | ⟨1, _⟩ => rfl)

/-- The first contraction's right operand at `(r, c)`, term `k`: entry `(k, c)`. -/
theorem ridx_v16 (r : Fin 100000) (c : Fin 64) (k : Fin 256) : ridx_main_v16 (ix2 r c) k = ix2 k c :=
  funext fun a => Fin.ext (by match a with | ⟨0, _⟩ => rfl | ⟨1, _⟩ => rfl)

/-- The source normalisation spread over the 256 feature columns: entry `(r, k)` reads node `r`. -/
theorem nidx_v14 (r : Fin 100000) (k : Fin 256) : idx_main_v13 (idx_main_v14 (ix2 r k)) = ix1 r :=
  funext fun a => Fin.ext (by match a with | ⟨0, _⟩ => rfl)

/-- The destination normalisation spread over the 64 hidden columns: entry `(r, c)` reads node `r`. -/
theorem nidx_v28 (r : Fin 100000) (c : Fin 64) : idx_main_v27 (idx_main_v28 (ix2 r c)) = ix1 r :=
  funext fun a => Fin.ext (by match a with | ⟨0, _⟩ => rfl)

/-- The first bias spread down the rows: entry `(r, c)` reads column `c`. -/
theorem bidx_v31 (r : Fin 100000) (c : Fin 64) : idx_main_v30 (idx_main_v31 (ix2 r c)) = ix1 c :=
  funext fun a => Fin.ext (by match a with | ⟨0, _⟩ => rfl)

/-- The second contraction's left operand at `(r, c)`, term `k`: entry `(r, k)`. -/
theorem lidx_v37 (r : Fin 100000) (c : Fin 40) (k : Fin 64) : lidx_main_v37 (ix2 r c) k = ix2 r k :=
  funext fun a => Fin.ext (by match a with | ⟨0, _⟩ => rfl | ⟨1, _⟩ => rfl)

/-- The second contraction's right operand at `(r, c)`, term `k`: entry `(k, c)`. -/
theorem ridx_v37 (r : Fin 100000) (c : Fin 40) (k : Fin 64) : ridx_main_v37 (ix2 r c) k = ix2 k c :=
  funext fun a => Fin.ext (by match a with | ⟨0, _⟩ => rfl | ⟨1, _⟩ => rfl)

/-- The source normalisation spread over the 64 hidden columns: entry `(r, k)` reads node `r`. -/
theorem nidx_v35 (r : Fin 100000) (k : Fin 64) : idx_main_v34 (idx_main_v35 (ix2 r k)) = ix1 r :=
  funext fun a => Fin.ext (by match a with | ⟨0, _⟩ => rfl)

/-- The destination normalisation spread over the 40 output columns: entry `(r, c)` reads node `r`. -/
theorem nidx_v49 (r : Fin 100000) (c : Fin 40) : idx_main_v48 (idx_main_v49 (ix2 r c)) = ix1 r :=
  funext fun a => Fin.ext (by match a with | ⟨0, _⟩ => rfl)

/-- The second bias spread down the rows: entry `(r, c)` reads column `c`. -/
theorem bidx_v52 (r : Fin 100000) (c : Fin 40) : idx_main_v51 (idx_main_v52 (ix2 r c)) = ix1 c :=
  funext fun a => Fin.ext (by match a with | ⟨0, _⟩ => rfl)

variable (x0 : (⟨S100000x256, .f32⟩ : BufTy).Contents (Elt Ideal)) (x1 x2 : (⟨S1600000, .i32⟩ : BufTy).Contents (Elt Ideal))
  (x3 : (⟨S256x64, .f32⟩ : BufTy).Contents (Elt Ideal)) (x4 : (⟨S64, .f32⟩ : BufTy).Contents (Elt Ideal))
  (x5 : (⟨S64x40, .f32⟩ : BufTy).Contents (Elt Ideal)) (x6 : (⟨S40, .f32⟩ : BufTy).Contents (Elt Ideal))

/-- The reference's first projection is `projectIn` of the features, the source-degree normalisation and `W₁`. -/
theorem projectIn_eq : val_main_v16 (F := Ideal) x0 x1 x3 = Cert.Layers.projectIn x0 (val_main_v9 (F := Ideal) x1) x3 := by
  funext i
  obtain ⟨r, c, rfl⟩ : ∃ (r : Fin 100000) (c : Fin 64), i = ix2 r c := ⟨i 0, i 1, eq_ix2 i⟩
  rw [val_main_v16_apply]
  show _ = ∑ k : Fin 256, (x0 (ix2 r k) * val_main_v9 (F := Ideal) x1 (ix1 r)) * x3 (ix2 k c)
  refine Finset.sum_congr rfl fun k _ => ?_
  rw [lidx_v16, ridx_v16, val_main_v15_apply, val_main_v14_apply, val_main_v13_apply, nidx_v14, Ideal.mulf_def]

/-- The reference's first aggregation is `edgeSumHidden` of its first projection. -/
theorem aggregateHidden_eq : val_main_v26 (F := Ideal) x0 x1 x2 x3 = edgeSumHidden (val_main_v16 (F := Ideal) x0 x1 x3) x1 x2 := by
  unfold val_main_v26 val_main_v23 edgeSumHidden; rfl

/-- The reference's hidden layer (its second result). -/
theorem hidden_eq : val_main_v32 (F := Ideal) x0 x1 x2 x3 x4
    = Cert.Layers.scaleBiasHidden (edgeSumHidden (Cert.Layers.projectIn x0 (val_main_v9 (F := Ideal) x1) x3) x1 x2) (val_main_v12 (F := Ideal) x2) x4 := by
  funext i
  obtain ⟨r, c, rfl⟩ : ∃ (r : Fin 100000) (c : Fin 64), i = ix2 r c := ⟨i 0, i 1, eq_ix2 i⟩
  rw [val_main_v32_apply, val_main_v29_apply, val_main_v28_apply, val_main_v27_apply, nidx_v28,
    val_main_v31_apply, val_main_v30_apply, bidx_v31, aggregateHidden_eq, projectIn_eq, Ideal.addf_def, Ideal.mulf_def]
  rfl

/-- The reference's second projection is `projectHidden` of its hidden layer. -/
theorem projectHidden_eq : val_main_v37 (F := Ideal) x0 x1 x2 x3 x4 x5
    = Cert.Layers.projectHidden (val_main_v32 (F := Ideal) x0 x1 x2 x3 x4) (val_main_v9 (F := Ideal) x1) x5 := by
  funext i
  obtain ⟨r, c, rfl⟩ : ∃ (r : Fin 100000) (c : Fin 40), i = ix2 r c := ⟨i 0, i 1, eq_ix2 i⟩
  rw [val_main_v37_apply]
  show _ = ∑ k : Fin 64, (max (val_main_v32 (F := Ideal) x0 x1 x2 x3 x4 (ix2 r k)) (Ideal.ofBits .f32 0x00000000#32)
      * val_main_v9 (F := Ideal) x1 (ix1 r)) * x5 (ix2 k c)
  refine Finset.sum_congr rfl fun k _ => ?_
  rw [lidx_v37, ridx_v37, val_main_v36_apply, val_main_v33_apply, val_main_v35_apply, val_main_v34_apply, nidx_v35,
    val_main_call0_v0_apply, val_main_call0_cst_apply, Ideal.mulf_def, Ideal.maximumf_def, Ideal.ofBits_def]

/-- The reference's second aggregation is `edgeSumOut` of its second projection. -/
theorem aggregateOut_eq : val_main_v47 (F := Ideal) x0 x1 x2 x3 x4 x5 = edgeSumOut (val_main_v37 (F := Ideal) x0 x1 x2 x3 x4 x5) x1 x2 := by
  unfold val_main_v47 val_main_v44 edgeSumOut; rfl

/-- The reference's output layer (its first result). -/
theorem out_eq : val_main_v53 (F := Ideal) x0 x1 x2 x3 x4 x5 x6
    = Cert.Layers.scaleBiasOut (edgeSumOut (Cert.Layers.projectHidden (val_main_v32 (F := Ideal) x0 x1 x2 x3 x4) (val_main_v9 (F := Ideal) x1) x5) x1 x2) (val_main_v12 (F := Ideal) x2) x6 := by
  funext i
  obtain ⟨r, c, rfl⟩ : ∃ (r : Fin 100000) (c : Fin 40), i = ix2 r c := ⟨i 0, i 1, eq_ix2 i⟩
  rw [val_main_v53_apply, val_main_v50_apply, val_main_v49_apply, val_main_v48_apply, nidx_v49,
    val_main_v52_apply, val_main_v51_apply, bidx_v52, aggregateOut_eq, projectHidden_eq, Ideal.addf_def, Ideal.mulf_def]
  rfl

end Cert.ReferenceIdeal.RefStages

end
-- ==== Proof.Bridge.lean ====
/-
  The two programs share their host operations outside the dense steps: the degree normalisation and the two edge
  aggregations are the same operations with the same dimension records on both sides, so the closed terms the kernel
  side names (`Stretches`) and the ones the reference side names (`RefStages`, the reference's stages) are equal by
  unfolding. With them the reference's two results are the same closed functions `hiddenOf` / `outOf` of the arguments
  that the kernel program's results are.
-/
import proofs.«147151_j55113020342885_1_alg».proof.Proof.Results
import proofs.«147151_j55113020342885_1_alg».proof.Proof.RefStages

set_option maxRecDepth 16384

noncomputable section

namespace Cert.Bridge

open Idealize.ShloMosaic Idealize.ShloMosaic.TcCoe Idealize.SL.Sem
open Cert.ReferenceIdeal.Read Cert.ReferenceIdeal.RefStages

variable (x0 : (⟨Cert.ReferenceIdeal.S100000x256, .f32⟩ : BufTy).Contents (Elt Ideal))
  (x1 x2 : (⟨Cert.ReferenceIdeal.S1600000, .i32⟩ : BufTy).Contents (Elt Ideal))
  (x3 : (⟨Cert.ReferenceIdeal.S256x64, .f32⟩ : BufTy).Contents (Elt Ideal)) (x4 : (⟨Cert.ReferenceIdeal.S64, .f32⟩ : BufTy).Contents (Elt Ideal))
  (x5 : (⟨Cert.ReferenceIdeal.S64x40, .f32⟩ : BufTy).Contents (Elt Ideal)) (x6 : (⟨Cert.ReferenceIdeal.S40, .f32⟩ : BufTy).Contents (Elt Ideal))

/-- The reference's source-degree normalisation is the kernel side's `degNorm` of the source index. -/
theorem degNorm_src : val_main_v9 (F := Ideal) x1 = Cert.KernelIdeal.Stretches.degNorm x1 := rfl
/-- The reference's destination-degree normalisation is `degNorm` of the destination index. -/
theorem degNorm_dst : val_main_v12 (F := Ideal) x2 = Cert.KernelIdeal.Stretches.degNorm x2 := rfl
/-- The first edge aggregation is one function on both sides. -/
theorem edgeSumHidden_eq (h : (⟨Cert.ReferenceIdeal.S100000x64, .f32⟩ : BufTy).Contents (Elt Ideal)) :
    edgeSumHidden h x1 x2 = Cert.KernelIdeal.Stretches.edgeSumHidden h x1 x2 := rfl
/-- The second edge aggregation is one function on both sides. -/
theorem edgeSumOut_eq (h : (⟨Cert.ReferenceIdeal.S100000x40, .f32⟩ : BufTy).Contents (Elt Ideal)) :
    edgeSumOut h x1 x2 = Cert.KernelIdeal.Stretches.edgeSumOut h x1 x2 := rfl

/-- The reference's hidden layer (its second result) is the kernel program's. -/
theorem hidden_eq : val_main_v32 (F := Ideal) x0 x1 x2 x3 x4 = Cert.KernelIdeal.Results.hiddenOf x0 x1 x2 x3 x4 := by
  rw [Cert.ReferenceIdeal.RefStages.hidden_eq, degNorm_src, degNorm_dst, edgeSumHidden_eq]
  rfl

/-- The reference's output layer (its first result) is the kernel program's. -/
theorem out_eq : val_main_v53 (F := Ideal) x0 x1 x2 x3 x4 x5 x6 = Cert.KernelIdeal.Results.outOf x0 x1 x2 x3 x4 x5 x6 := by
  rw [Cert.ReferenceIdeal.RefStages.out_eq, hidden_eq, degNorm_src, degNorm_dst, edgeSumOut_eq]
  rfl

end Cert.Bridge

end
-- ==== Proof.lean ====
/-
  A two-layer graph convolution, the kernel program against its reference, over the extended reals.

  Both programs compute, with `n_src`, `n_dst` the reciprocal square roots of the (clamped) out- and in-degrees and `S`
  the aggregation over the edges (gather the rows by the source index, sum them into the destination rows),
      h   = S((X · diag n_src) W₁) · diag n_dst + b₁,
      out = S((relu h · diag n_src) W₂) · diag n_dst + b₂,
  and return `(out, h)`. The kernel program does the four dense steps in three pallas_calls, row block by row block
  (the products on bf16 operands, which at the extended reals is no change of value), and the degree counts and `S`
  in host operations between them; the reference does everything in host operations, in the same order. So no
  algebraic law is needed beyond reading each side's dense steps index by index as the same sums: `Layers` states
  the four steps, `Region0/1/2` that each pallas_call leaves its step's array, `Stretches` what the host operations
  hand from one region to the next, `Results` the kernel program's two results as closed functions of the arguments,
  `RefStages` and `Bridge` that the reference's results are the same functions. The precondition is never opened:
  nothing here needs finiteness.

  The frames of the two kernel programs are the generated ones; the reference's is its generated run with the
  results dropped; the idealization rewrote nothing, so `preserves` is `True`.
-/
import proofs.«147151_j55113020342885_1_alg».proof.Defs
import proofs.«147151_j55113020342885_1_alg».proof.Proof.Gen.Kernel
import proofs.«147151_j55113020342885_1_alg».proof.Proof.Gen.Kernel.Skeleton
import proofs.«147151_j55113020342885_1_alg».proof.Proof.Gen.Kernel.Launch
import proofs.«147151_j55113020342885_1_alg».proof.Proof.Gen.Kernel.Points
import proofs.«147151_j55113020342885_1_alg».proof.Proof.Gen.Kernel.Frame
import proofs.«147151_j55113020342885_1_alg».proof.Proof.Gen.KernelIdeal
import proofs.«147151_j55113020342885_1_alg».proof.Proof.Gen.KernelIdeal.Skeleton
import proofs.«147151_j55113020342885_1_alg».proof.Proof.Gen.KernelIdeal.Launch
import proofs.«147151_j55113020342885_1_alg».proof.Proof.Gen.KernelIdeal.Points
import proofs.«147151_j55113020342885_1_alg».proof.Proof.Gen.KernelIdeal.Frame
import proofs.«147151_j55113020342885_1_alg».proof.Proof.Gen.ReferenceIdeal
import proofs.«147151_j55113020342885_1_alg».proof.Proof.Gen.ReferenceIdeal.Run
import proofs.«147151_j55113020342885_1_alg».proof.Proof.Gen.ReferenceIdeal.Read
import proofs.«147151_j55113020342885_1_alg».proof.Proof.Gen.Pre_finite_inputs
import proofs.«147151_j55113020342885_1_alg».proof.Proof.Results
import proofs.«147151_j55113020342885_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

namespace Claims

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization changed no operation. -/
theorem preserves : Cert.preserves_Kernel_KernelIdeal := trivial

/-- From memories that agree on the seven arguments both programs end with `outOf` and `hiddenOf` of those
    arguments in their two results: the kernel program by its read run, the reference by its run, its stages
    being the same functions. -/
theorem algebraic : Cert.algebraic_KernelIdeal_ReferenceIdeal := by
  intro m ρ m' ρ' _ hagree
  refine ⟨fun c => Cert.KernelIdeal.Results.outOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.KernelIdeal.Results.hiddenOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Results.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨?_, ?_, (h c).2.2⟩
  · refine (h c).1.trans ((Cert.ReferenceIdeal.Read.val_main_v53_eq m' c).trans ((Cert.Bridge.out_eq _ _ _ _ _ _ _).trans ?_))
    rw [a0, a1, a2, a3, a4, a5, a6]
  · refine (h c).2.1.trans ((Cert.ReferenceIdeal.Read.val_main_v32_eq _ _ _ _ _).trans ((Cert.Bridge.hidden_eq _ _ _ _ _).trans ?_))
    rw [a0, a1, a2, a3, a4]

end Claims

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_referenceIdeal, Claims.preserves, Claims.algebraic⟩

end Cert.Proof

end
